-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S16x2 : S_.BroadcastsInDim S16x2 (![] : Fin 0 → Fin S16x2.rank)
  reducesTo_S16x2_S_d0_1 : S16x2.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : IVec S2048x2048 32) (main_arg2 : IVec S2048x2048 32) (main_arg3 : FVec F S256x2 .f32) (main_arg4 : FVec F S16x2 .f32) (main_arg5 : FVec F S4096 .f32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S256x2 .f32 := Host.absf main_arg3
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S16x2 .f32 := Host.absf main_arg4
  let main_cst_2 : FVec F S_ .f32 := constant S_ .f32 0x7F800000#32
  let main_v10 : FVec F S16x2 .f32 := broadcastInDim S16x2 ![] bcast_S_S16x2 main_cst_2
  let main_v11 : IVec S16x2 1 := cmpf .olt main_v9 main_v10
  let main_c_3 : IVec S_ 1 := constantI S_ 1 1#1
  let main_v12 : IVec S_ 1 := (fun x v => Host.reduce IntOp.andi x v reducesTo_S16x2_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_v13 main_v16
-- ==== Kernel.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩
abbrev S2048x2048x1 : Shape := ⟨3, ![2048, 2048, 1]⟩
abbrev S2048x2048x2 : Shape := ⟨3, ![2048, 2048, 2]⟩
abbrev S2048x4096 : Shape := ⟨2, ![2048, 4096]⟩
abbrev S4096x4096 : Shape := ⟨2, ![4096, 4096]⟩
abbrev S4096x1 : Shape := ⟨2, ![4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 37
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S2048x2048, .i32⟩
  | .hbm, ⟨2, _⟩ => ⟨S2048x2048, .i32⟩
  | .hbm, ⟨3, _⟩ => ⟨S256x2, .f32⟩
  | .hbm, ⟨4, _⟩ => ⟨S16x2, .f32⟩
  | .hbm, ⟨5, _⟩ => ⟨S4096, .f32⟩
  | .hbm, ⟨6, _⟩ => ⟨S4096, .f32⟩
  | .hbm, ⟨7, _⟩ => ⟨S_, .i32⟩
  | .hbm, ⟨8, _⟩ => ⟨S2048x2048, .i32⟩
  | .hbm, ⟨9, _⟩ => ⟨S2048x2048, .i1⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048x1, .i32⟩
  | .hbm, ⟨15, _⟩ => ⟨S2048x2048x2, .f32⟩
  | .hbm, ⟨16, _⟩ => ⟨S2048x4096, .f32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048x1, .i32⟩
  | .hbm, ⟨25, _⟩ => ⟨S2048x2048x2, .f32⟩
  | .hbm, ⟨26, _⟩ => ⟨S2048x4096, .f32⟩
  | .hbm, ⟨27, _⟩ => ⟨S4096x4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .bf16⟩
  | .hbm, ⟨33, _⟩ => ⟨S4096x4096, .bf16⟩
  | .hbm, ⟨34, _⟩ => ⟨S1x4096, .f32⟩
  | .hbm, ⟨35, _⟩ => ⟨S4096x4096, .f32⟩
  | .hbm, ⟨36, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  shapeCasts_S2048x2048x2_S2048x4096 : S2048x2048x2.ShapeCasts S2048x4096
  concatenates_S2048x4096_S2048x4096_S4096x4096_d0 : Shape.Concatenates [S2048x4096, S2048x4096] S4096x4096 0
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S2x2048x4096_S4096x4096 : S2x2048x4096.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  gather_S256x2_S2048x2048x1_S2048x2048x2_2_0_n_n_0_2_12_wf : GatherDims.WF S256x2 S2048x2048x1 S2048x2048x2 [2] [0] [] [0] [] 2 ![1, 2]
  gather_S16x2_S2048x2048x1_S2048x2048x2_2_0_n_n_0_2_12_wf : GatherDims.WF S16x2 S2048x2048x1 S2048x2048x2 [2] [0] [] [0] [] 2 ![1, 2]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def gather_S256x2_S2048x2048x1_S2048x2048x2_2_0_n_n_0_2_12 : GatherDims S256x2 S2048x2048x1 S2048x2048x2 where
  offsetDims := [2]
  collapsedSliceDims := [0]
  operandBatchingDims := []
  startIndicesBatchingDims := []
  startIndexMap := [0]
  indexVectorDim := 2
  sliceSizes := ![1, 2]
  wf := gather_S256x2_S2048x2048x1_S2048x2048x2_2_0_n_n_0_2_12_wf
def gather_S16x2_S2048x2048x1_S2048x2048x2_2_0_n_n_0_2_12 : GatherDims S16x2 S2048x2048x1 S2048x2048x2 where
  offsetDims := [2]
  collapsedSliceDims := [0]
  operandBatchingDims := []
  startIndicesBatchingDims := []
  startIndexMap := [0]
  indexVectorDim := 2
  sliceSizes := ![1, 2]
  wf := gather_S16x2_S2048x2048x1_S2048x2048x2_2_0_n_n_0_2_12_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩
abbrev S2048x2048x1 : Shape := ⟨3, ![2048, 2048, 1]⟩
abbrev S2048x2048x2 : Shape := ⟨3, ![2048, 2048, 2]⟩
abbrev S2048x4096 : Shape := ⟨2, ![2048, 4096]⟩
abbrev S4096x4096 : Shape := ⟨2, ![4096, 4096]⟩
abbrev S4096x1 : Shape := ⟨2, ![4096, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2048x2048, .i32⟩
  | .hbm, ⟨2, _⟩ => ⟨S2048x2048, .i32⟩
  | .hbm, ⟨3, _⟩ => ⟨S256x2, .f32⟩
  | .hbm, ⟨4, _⟩ => ⟨S16x2, .f32⟩
  | .hbm, ⟨5, _⟩ => ⟨S4096, .f32⟩
  | .hbm, ⟨6, _⟩ => ⟨S4096, .f32⟩
  | .hbm, ⟨7, _⟩ => ⟨S_, .i32⟩
  | .hbm, ⟨8, _⟩ => ⟨S2048x2048, .i32⟩
  | .hbm, ⟨9, _⟩ => ⟨S2048x2048, .i1⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048x1, .i32⟩
  | .hbm, ⟨15, _⟩ => ⟨S2048x2048x2, .f32⟩
  | .hbm, ⟨16, _⟩ => ⟨S2048x4096, .f32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048x1, .i32⟩
  | .hbm, ⟨25, _⟩ => ⟨S2048x2048x2, .f32⟩
  | .hbm, ⟨26, _⟩ => ⟨S2048x4096, .f32⟩
  | .hbm, ⟨27, _⟩ => ⟨S4096x4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S2x2048x4096, .f32⟩
  | .hbm, ⟨32, _⟩ => ⟨S1x1x4096, .f32⟩
  | .hbm, ⟨33, _⟩ => ⟨S2x2048x4096, .f32⟩
  | .hbm, ⟨34, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  shapeCasts_S2048x2048x2_S2048x4096 : S2048x2048x2.ShapeCasts S2048x4096
  concatenates_S2048x4096_S2048x4096_S4096x4096_d0 : Shape.Concatenates [S2048x4096, S2048x4096] S4096x4096 0
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  gather_S256x2_S2048x2048x1_S2048x2048x2_2_0_n_n_0_2_12_wf : GatherDims.WF S256x2 S2048x2048x1 S2048x2048x2 [2] [0] [] [0] [] 2 ![1, 2]
  gather_S16x2_S2048x2048x1_S2048x2048x2_2_0_n_n_0_2_12_wf : GatherDims.WF S16x2 S2048x2048x1 S2048x2048x2 [2] [0] [] [0] [] 2 ![1, 2]
  dot_S2x2048x4096_S4096x4096_S2x2048x4096_2_1_01_0_n_n_wf : DotDims.WF S2x2048x4096 S4096x4096 S2x2048x4096 [2] [1] [0, 1] [0] [] []

variable [Facts₀]

def gather_S256x2_S2048x2048x1_S2048x2048x2_2_0_n_n_0_2_12 : GatherDims S256x2 S2048x2048x1 S2048x2048x2 where
  offsetDims := [2]
  collapsedSliceDims := [0]
  operandBatchingDims := []
  startIndicesBatchingDims := []
  startIndexMap := [0]
  indexVectorDim := 2
  sliceSizes := ![1, 2]
  wf := gather_S256x2_S2048x2048x1_S2048x2048x2_2_0_n_n_0_2_12_wf
def gather_S16x2_S2048x2048x1_S2048x2048x2_2_0_n_n_0_2_12 : GatherDims S16x2 S2048x2048x1 S2048x2048x2 where
  offsetDims := [2]
  collapsedSliceDims := [0]
  operandBatchingDims := []
  startIndicesBatchingDims := []
  startIndexMap := [0]
  indexVectorDim := 2
  sliceSizes := ![1, 2]
  wf := gather_S16x2_S2048x2048x1_S2048x2048x2_2_0_n_n_0_2_12_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Cases.lean ====
/-
  What one run of the kernel body leaves behind, case by case, as the body's own arithmetic of the blocks it
  loaded. At the first step of the contraction axis the scratch is reset and then accumulated into, so it ends at
  "zero plus the tiles' product"; at every later step it ends at "what it held plus the tiles' product"; and at
  the last step the output block is that new scratch plus the bias row. Each store covers its whole buffer, so
  the buffer's final contents are the last store's value, and a load after a store reads that store's value.
-/
import proofs.«106945_j46188078301681_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First step of the contraction axis: the scratch ends at the product accumulated into the zero block. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz]
  simp only [View.readCov_unit_zero (S := S1024x1024) _ hz, View.readAt_eq_ld, harg3.read_unread, harg4.read_unread, harg5.read_unread, harg7.read_unread, View.ld_unit_zero (S := S1024x1024) hz, View.ld_unit_zero (S := S1x1024) hz]

/-- A middle step: the scratch ends at the product accumulated into what it held. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readCov_unit_zero (S := S1024x1024) _ hz, View.readAt_eq_ld, harg3.read_unread, harg4.read_unread, harg5.read_unread, harg7.read_unread, View.ld_unit_zero (S := S1024x1024) hz, View.ld_unit_zero (S := S1x1024) hz]

/-- The last step leaves the scratch the same way … -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x1024) _ hz, View.readAt_eq_ld, harg3.read_unread, harg4.read_unread, harg5.read_unread, harg7.read_unread, View.ld_unit_zero (S := S1024x1024) hz, View.ld_unit_zero (S := S1x1024) hz]

/-- … and stores, as the output block, that new scratch plus the bias row. -/
theorem block_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x1024) _ hz, View.readAt_eq_ld, harg3.read_unread, harg4.read_unread, harg5.read_unread, harg7.read_unread, View.ld_unit_zero (S := S1024x1024) hz, View.ld_unit_zero (S := S1x1024) hz]

end Cert.KernelIdeal.Cases

end
-- ==== Proof.Tile.lean ====
/-
  The kernel body's three stored values, read at an index over the extended reals.
  The reset stores zero; the accumulation stores the scratch plus the product of the two 1024 × 1024 tiles,
  which contracts axis 1 of BOTH tiles (rows against rows): entry (p, q) is the sum over `k` of `a p k · b q k`;
  the last step stores the scratch plus the bias row laid down every row.
-/
import proofs.«106945_j46188078301681_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left tile is read at the result's row … -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the contraction position; -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right tile at the result's COLUMN, as a row, … -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and the contraction position. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product into a zero accumulator, at (p, q): rows `p` of `a` and `q` of `b`, entry by entry. -/
theorem product_apply (a b : FVec Ideal S1024x1024 .bf16) (p q : Fin 1024) :
    matmul (F := Ideal) (φ₁ := .bf16) (φ₂ := .bf16) dot_S1024x1024_S1024x1024_S1024x1024_1_1_0_0_n_n none a b (constant S1024x1024 .f32 0x00000000#32) (ix2 p q)
      = ∑ k : Fin 1024, a (ix2 p k) * b (ix2 q k) := by
  generalize hi : (ix2 p q : S1024x1024.Idx) = i
  have hi0 : (i 0).val = p.val := by rw [← hi]
  have hi1 : (i 1).val = q.val := by rw [← hi]
  show FloatOps.matmul _ _ _ _ _ i = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx i ((contrEquiv1 dot_S1024x1024_S1024x1024_S1024x1024_1_1_0_0_n_n 1024 rfl rfl).symm k) = ix2 p k := funext fun d => Fin.ext (by
    match d with
    | ⟨0, _⟩ => exact (lhs_row _ _).trans hi0
    | ⟨1, _⟩ => exact (lhs_col _ _).trans hk)
  have er : dot_S1024x1024_S1024x1024_S1024x1024_1_1_0_0_n_n.rhsIdx i ((contrEquiv1 dot_S1024x1024_S1024x1024_S1024x1024_1_1_0_0_n_n 1024 rfl rfl).symm k) = ix2 q k := funext fun d => Fin.ext (by
    match d with
    | ⟨0, _⟩ => exact (rhs_row _ _).trans hi1
    | ⟨1, _⟩ => exact (rhs_col _ _).trans hk)
  rw [el, er]

/-- The reset's value is zero everywhere. -/
theorem reset_apply (y : S1024x1024.Idx) : k0_pay1 (F := Ideal) y = 0 := by
  unfold k0_pay1
  simp only [shapeCast_self]
  show Ideal.ofBits .f32 0x00000000#32 = 0
  exact Ideal.ofBits_zero_f32

/-- The accumulation's value at (p, q): the scratch there plus the tiles' product there. -/
theorem accumulate_apply (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 q k) := by
  unfold k0_pay2
  simp only [shapeCast_self]
  exact congrArg (acc (ix2 p q) + ·) (product_apply a b p q)

/-- The last step's value at (p, q): the scratch there plus the bias row at column `q`. -/
theorem finish_apply (acc : Vec Ideal S1024x1024 .f32) (r : Vec Ideal S1x1024 .f32) (p q : Fin 1024) :
    k0_pay3 (F := Ideal) acc r (ix2 p q) = acc (ix2 p q) + r (ix2 (0 : Fin 1) q) := by
  unfold k0_pay3
  simp only [shapeCast_self]
  show acc (ix2 p q) + broadcastTo S1024x1024 r broadcasts_S1x1024_S1024x1024 (ix2 p q) = _
  rw [broadcastTo_apply r broadcasts_S1x1024_S1024x1024 (ix2 p q) (ix2 (0 : Fin 1) q) (fun d => by
    match d with
    | ⟨0, _⟩ => show 0 = if (1 : Nat) = 1 then 0 else _; rw [if_pos rfl]
    | ⟨1, _⟩ => show q.val = if (1024 : Nat) = 1 then 0 else q.val; rw [if_neg (by decide)])]

end Cert.KernelIdeal.Tile

end
-- ==== Proof.Spec.lean ====
/-
  The dense layer both programs compute, as one function of the three arrays the matrix product meets:
  `X` (4096 rows of activations), `W` (4096 rows of weights) and a one-row bias `B`. Entry (r, o) of the
  layer is the sum over `i < 4096` of `X r i · W o i`, plus `B 0 o`: each row of `X` against each ROW of `W`.
  The sum is written over natural numbers (entries outside the array count as zero), so that a run of
  1024 consecutive terms, which is what one tile of the contraction axis adds, splits off by
  `Finset.sum_range_add`. Addition on the extended reals is associative and commutative with no
  side condition, so nothing here asks the entries to be finite.
-/
import Idealize.ShloMosaic.Lib.ValueIdx
import Idealize.ShloMosaic.PureOps.Ideal.Laws

noncomputable section

namespace Cert.Dense

open Idealize.ShloMosaic Idealize.ShloMosaic.ValueIdx

/-- A 4096 × 4096 array of extended reals. -/
abbrev Sq : Type := (⟨2, ![4096, 4096]⟩ : Shape).Idx → EReal
/-- A 1 × 4096 array of extended reals. -/
abbrev Row : Type := (⟨2, ![1, 4096]⟩ : Shape).Idx → EReal

/-- Entry (a, b) of a 4096 × 4096 array; zero outside it, so that sums may range over the naturals. -/
def ent (X : Sq) (a b : ℕ) : EReal :=
  if h : a < 4096 ∧ b < 4096 then X (ix2 ⟨a, h.1⟩ ⟨b, h.2⟩) else 0

theorem ent_of_lt (X : Sq) {a b : ℕ} (ha : a < 4096) (hb : b < 4096) : ent X a b = X (ix2 ⟨a, ha⟩ ⟨b, hb⟩) :=
  dif_pos ⟨ha, hb⟩

/-- At an index of the array, `ent` is the entry. -/
theorem ent_idx (X : Sq) (j : (⟨2, ![4096, 4096]⟩ : Shape).Idx) : ent X (j 0).val (j 1).val = X j := by
  rw [ent_of_lt X (idx2_lt0 j) (idx2_lt1 j)]
  exact congrArg X (eq_ix2 j).symm

/-- The first `n` products of row `a` of `X` with row `b` of `W`, summed. -/
def rowDot (X W : Sq) (a b n : ℕ) : EReal := ∑ i ∈ Finset.range n, ent X a i * ent W b i

theorem rowDot_zero (X W : Sq) (a b : ℕ) : rowDot X W a b 0 = 0 := Finset.sum_range_zero _

/-- `l` more terms: the partial sum grows by the next `l` products. -/
theorem rowDot_add (X W : Sq) (a b n l : ℕ) :
    rowDot X W a b (n + l) = rowDot X W a b n + ∑ i ∈ Finset.range l, ent X a (n + i) * ent W b (n + i) :=
  Finset.sum_range_add _ n l

/-- A tile's contribution, as the matrix unit sums it (over `Fin l`), is the next `l` products. -/
theorem tile_sum (X W : Sq) (a b n l : ℕ) :
    (∑ k : Fin l, ent X a (n + k.val) * ent W b (n + k.val)) = ∑ i ∈ Finset.range l, ent X a (n + i) * ent W b (n + i) :=
  Fin.sum_univ_eq_sum_range (fun i => ent X a (n + i) * ent W b (n + i)) l

/-- One tile step: a partial sum of `n` terms plus the tile's `l` products is the partial sum of `n + l` terms. -/
theorem rowDot_step (X W : Sq) (a b n l : ℕ) :
    rowDot X W a b n + (∑ k : Fin l, ent X a (n + k.val) * ent W b (n + k.val)) = rowDot X W a b (n + l) := by
  rw [tile_sum, rowDot_add]

/-- The whole contraction as the host sums it (over `Fin 4096`). -/
theorem rowDot_full (X W : Sq) (a b : ℕ) :
    (∑ k : Fin 4096, ent X a k.val * ent W b k.val) = rowDot X W a b 4096 :=
  Fin.sum_univ_eq_sum_range (fun i => ent X a i * ent W b i) 4096

/-- The layer: every row of `X` against every row of `W`, plus the bias row. -/
def layer (X W : Sq) (B : Row) : Sq :=
  fun j => rowDot X W (j 0).val (j 1).val 4096 + B (ix2 (0 : Fin 1) ⟨(j 1).val, idx2_lt1 j⟩)

/-- The layer at an index whose coordinates are known. -/
theorem layer_apply (X W : Sq) (B : Row) (j : (⟨2, ![4096, 4096]⟩ : Shape).Idx) (a b : ℕ) (ha : (j 0).val = a)
    (hb : (j 1).val = b) (hb' : b < 4096) :
    layer X W B j = rowDot X W a b 4096 + B (ix2 (0 : Fin 1) ⟨b, hb'⟩) := by
  subst ha hb; rfl

/-! ## The same layer in the programs' own layout

The activations arrive as 2 × 2048 tokens of 4096 features and the result leaves in that layout; the flattened
row of token (b, s) is `b · 2048 + s`. -/

/-- A 2 × 2048 × 4096 array of extended reals. -/
abbrev Cube : Type := (⟨3, ![2, 2048, 4096]⟩ : Shape).Idx → EReal
/-- A vector of 4096 extended reals. -/
abbrev Vec1 : Type := (⟨1, ![4096]⟩ : Shape).Idx → EReal

/-- Feature `k` of token (b, s); zero past the last feature. -/
def feat (x : Cube) (b : Fin 2) (s : Fin 2048) (k : ℕ) : EReal :=
  if h : k < 4096 then x (ix3 b s ⟨k, h⟩) else 0

theorem feat_of_lt (x : Cube) (b : Fin 2) (s : Fin 2048) {k : ℕ} (h : k < 4096) : feat x b s k = x (ix3 b s ⟨k, h⟩) :=
  dif_pos h

/-- The result: at token (b, s) and output feature `o`, the token's features against row `o` of the weights, plus
    the bias at `o`. -/
def out (x : Cube) (W : Sq) (bias : Vec1) : Cube := fun i =>
  (∑ k ∈ Finset.range 4096, feat x ⟨(i 0).val, (i 0).isLt⟩ ⟨(i 1).val, (i 1).isLt⟩ k * ent W (i 2).val k)
    + bias (ix1 ⟨(i 2).val, (i 2).isLt⟩)

end Cert.Dense

end
-- ==== Proof.Blocks.lean ====
/-
  The blocks the pipeline hands the body, read off the arrays the region finds. The 64 grid points run in
  row-major order over (row block, column block, contraction step), so point `t` works on row block `t / 16`,
  column block `t / 4 % 4` and contraction tile `t % 4`: the activations' block is rows of the row block and
  columns of the contraction tile, the weights' block is rows of the COLUMN block and columns of the contraction
  tile, and the bias block is the column block's stretch of the bias row. A block's coordinate is always
  index × 1024 + the coordinate inside the block.
-/
import proofs.«106945_j46188078301681_1_alg».proof.Proof.Gen.KernelIdeal.Frame
import proofs.«106945_j46188078301681_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The activations as the region finds them: 4096 rows (batch and sequence flattened) of 4096 features. -/
abbrev acts (c : Dev nD) : Cert.Dense.Sq := V m c main_v21
/-- The weights as the region finds them: 4096 output rows of 4096 features. -/
abbrev wts (c : Dev nD) : Cert.Dense.Sq := V m c main_v22
/-- The bias as the region finds it: one row. -/
abbrev biasRow (c : Dev nD) : Cert.Dense.Row := V m c main_v23

/-- Where each window's block sits at point `t`, decided once over the grid. -/
theorem where_acts : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem where_wts : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem where_bias : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem where_out : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-- The activations' block at point `t`, entry (p, k). -/
theorem acts_block (c : Dev nD) (t : Fin cfg0.N) (p k : Fin 1024) :
    (iblk m c 0 t : Vec Ideal S1024x1024 .bf16) (ix2 p k)
      = Cert.Dense.ent (acts m c) (t.val / 16 * 1024 + p.val) (t.val % 4 * 1024 + k.val) := by
  have hN : t.val < 64 := lt_of_lt_of_eq t.isLt (show cfg0.N = 64 from N_0)
  rw [Cert.Dense.ent_of_lt _ (by omega) (by omega)]
  unfold iblk
  rw [View.read_apply]
  show V m c main_v21 _ = V m c main_v21 _
  congr 1
  funext a
  apply Fin.ext
  match a with
  | ⟨0, _⟩ => show win0_0.index t 0 * 1024 + 1 * p.val = t.val / 16 * 1024 + p.val; rw [(where_acts t).1]; omega
  | ⟨1, _⟩ => show win0_0.index t 1 * 1024 + 1 * k.val = t.val % 4 * 1024 + k.val; rw [(where_acts t).2]; omega

/-- The weights' block at point `t`, entry (q, k): row `q` of the column block. -/
theorem wts_block (c : Dev nD) (t : Fin cfg0.N) (q k : Fin 1024) :
    (iblk m c 1 t : Vec Ideal S1024x1024 .bf16) (ix2 q k)
      = Cert.Dense.ent (wts m c) (t.val / 4 % 4 * 1024 + q.val) (t.val % 4 * 1024 + k.val) := by
  have hN : t.val < 64 := lt_of_lt_of_eq t.isLt (show cfg0.N = 64 from N_0)
  rw [Cert.Dense.ent_of_lt _ (by omega) (by omega)]
  unfold iblk
  rw [View.read_apply]
  show V m c main_v22 _ = V m c main_v22 _
  congr 1
  funext a
  apply Fin.ext
  match a with
  | ⟨0, _⟩ => show win0_1.index t 0 * 1024 + 1 * q.val = t.val / 4 % 4 * 1024 + q.val; rw [(where_wts t).1]; omega
  | ⟨1, _⟩ => show win0_1.index t 1 * 1024 + 1 * k.val = t.val % 4 * 1024 + k.val; rw [(where_wts t).2]; omega

/-- The bias block at point `t`, entry (0, q). -/
theorem bias_block (c : Dev nD) (t : Fin cfg0.N) (q : Fin 1024) (hq : t.val / 4 % 4 * 1024 + q.val < 4096) :
    (iblk m c 2 t : Vec Ideal S1x1024 .f32) (ix2 (0 : Fin 1) q)
      = biasRow m c (ix2 (0 : Fin 1) ⟨t.val / 4 % 4 * 1024 + q.val, hq⟩) := by
  unfold iblk
  rw [View.read_apply]
  show V m c main_v23 _ = V m c main_v23 _
  congr 1
  funext a
  apply Fin.ext
  match a with
  | ⟨0, _⟩ => show win0_2.index t 0 * 1 + 1 * 0 = 0; rw [(where_bias t).1]
  | ⟨1, _⟩ => show win0_2.index t 1 * 1024 + 1 * q.val = t.val / 4 % 4 * 1024 + q.val; rw [(where_bias t).2]; omega

end Cert.KernelIdeal.Blocks

end
-- ==== Proof.Invariant.lean ====
/-
  The carried scratch after every grid point. The contraction axis is walked in four tiles of 1024 for each
  output block; after the point at contraction step `k` the scratch holds, at (p, q), the first `(k + 1) · 1024`
  products of row `p` of the row block of the activations against row `q` of the column block of the weights.
  At step 0 the scratch starts from zero, the empty sum; a later step adds the next 1024 products to what the
  point before left, which belongs to the same output block because only the last grid axis moved.
-/
import proofs.«106945_j46188078301681_1_alg».proof.Proof.Cases
import proofs.«106945_j46188078301681_1_alg».proof.Proof.Tile
import proofs.«106945_j46188078301681_1_alg».proof.Proof.Blocks

noncomputable section

namespace Cert.KernelIdeal.Invariant

open Cert.KernelIdeal Cert.KernelIdeal.Gen Cert.KernelIdeal.Blocks Idealize.ShloMosaic Idealize.ShloMosaic.TcCoe Idealize.SL.Sem
open Idealize.ShloMosaic.ValueIdx Cert.Dense

/-- One accumulation, over any arrays: if the scratch holds `n` products of rows `r + p` and `s + q`, and the two
    tiles are the next 1024 columns of those rows, the new scratch holds `n + 1024` products. -/
theorem step (X W : Sq) (acc : Vec Ideal S1024x1024 .f32) (a b : Vec Ideal S1024x1024 .bf16) (r s n : ℕ)
    (hacc : ∀ p q : Fin 1024, acc (ix2 p q) = rowDot X W (r + p.val) (s + q.val) n)
    (ha : ∀ p k : Fin 1024, a (ix2 p k) = ent X (r + p.val) (n + k.val))
    (hb : ∀ q k : Fin 1024, b (ix2 q k) = ent W (s + q.val) (n + k.val)) (p q : Fin 1024) :
    k0_pay2 (F := Ideal) acc a b (ix2 p q) = rowDot X W (r + p.val) (s + q.val) (n + 1024) := by
  rw [Tile.accumulate_apply, hacc]
  have e : (∑ k : Fin 1024, a (ix2 p k) * b (ix2 q k))
      = ∑ k : Fin 1024, ent X (r + p.val) (n + k.val) * ent W (s + q.val) (n + k.val) :=
    Finset.sum_congr rfl fun k _ => by rw [ha, hb]
  rw [e]
  exact rowDot_step X W _ _ n 1024

variable (m : (ℓ : Loc nD τ sig) → Buf (Elt Ideal) ℓ)

/-- What the scratch holds after point `n`. -/
def partialAt (c : Dev nD) (n : ℕ) : Vec Ideal S1024x1024 .f32 := fun y =>
  rowDot (acts m c) (wts m c) (n / 16 * 1024 + (y 0).val) (n / 4 % 4 * 1024 + (y 1).val) ((n % 4 + 1) * 1024)

/-- One accumulation at point `t`, from a scratch that holds the products of the tiles before `t`'s. -/
theorem point_step (c : Dev nD) (t : Fin cfg0.N) (acc : Vec Ideal S1024x1024 .f32)
    (hacc : ∀ p q : Fin 1024, acc (ix2 p q)
      = rowDot (acts m c) (wts m c) (t.val / 16 * 1024 + p.val) (t.val / 4 % 4 * 1024 + q.val) (t.val % 4 * 1024)) :
    k0_pay2 (F := Ideal) acc (iblk m c 0 t) (iblk m c 1 t) = partialAt m c t.val := by
  funext y
  obtain ⟨p, q, rfl⟩ : ∃ (p : Fin 1024) (q : Fin 1024), y = ix2 p q := ⟨y 0, y 1, eq_ix2 y⟩
  refine (step (acts m c) (wts m c) acc (iblk m c 0 t) (iblk m c 1 t) (t.val / 16 * 1024) (t.val / 4 % 4 * 1024)
    (t.val % 4 * 1024) hacc (acts_block m c t) (wts_block m c t) p q).trans ?_
  show rowDot _ _ (t.val / 16 * 1024 + p.val) (t.val / 4 % 4 * 1024 + q.val) (t.val % 4 * 1024 + 1024)
    = rowDot _ _ (t.val / 16 * 1024 + p.val) (t.val / 4 % 4 * 1024 + q.val) ((t.val % 4 + 1) * 1024)
  rw [Nat.add_mul, Nat.one_mul]

/-- The scratch after point `n` is `partialAt n`: by induction on the point. -/
theorem scratch_eq (c : Dev nD) : ∀ (n : ℕ) (h : n < cfg0.N), (outsAt0 m c n h).2 = partialAt m c n
  | 0, h => by
    rw [outsAt0_A m c ⟨0, h⟩ rfl (by show ¬ 0 % 4 = 3; omega)]
    dsimp only
    rw [Cases.scratch_first]
    exact point_step m c ⟨0, h⟩ (k0_pay1 (F := Ideal)) (fun p q => by
      rw [Tile.reset_apply]; exact (rowDot_zero _ _ _ _).symm)
  | n + 1, h => by
    have hN : n + 1 < 64 := lt_of_lt_of_eq h (show cfg0.N = 64 from N_0)
    have ih := scratch_eq c n (Nat.lt_of_succ_lt h)
    have carried : (n + 1) % 4 ≠ 0 → ∀ p q : Fin 1024, (outsAt0 m c n (Nat.lt_of_succ_lt h)).2 (ix2 p q)
        = rowDot (acts m c) (wts m c) ((n + 1) / 16 * 1024 + p.val) ((n + 1) / 4 % 4 * 1024 + q.val) ((n + 1) % 4 * 1024) := by
      intro h0 p q
      rw [ih]
      have e1 : n / 16 = (n + 1) / 16 := by omega
      have e2 : n / 4 % 4 = (n + 1) / 4 % 4 := by omega
      have e3 : n % 4 + 1 = (n + 1) % 4 := by omega
      show rowDot _ _ (n / 16 * 1024 + p.val) (n / 4 % 4 * 1024 + q.val) ((n % 4 + 1) * 1024) = _
      rw [e1, e2, e3]
    by_cases h0 : (n + 1) % 4 = 0
    · rw [outsAt0_A m c ⟨n + 1, h⟩ h0 (by dsimp only; omega)]
      dsimp only
      rw [Cases.scratch_first]
      exact point_step m c ⟨n + 1, h⟩ (k0_pay1 (F := Ideal)) (fun p q => by
        rw [Tile.reset_apply]
        show 0 = rowDot _ _ _ _ ((n + 1) % 4 * 1024)
        rw [h0, Nat.zero_mul, rowDot_zero])
    · by_cases h1 : (n + 1) % 4 = 3
      · rw [outsAt0_C m c ⟨n + 1, h⟩ h0 h1]
        dsimp only
        rw [Cases.scratch_last]
        exact point_step m c ⟨n + 1, h⟩ _ (carried h0)
      · rw [outsAt0_B m c ⟨n + 1, h⟩ h0 h1]
        dsimp only
        rw [Cases.scratch_middle]
        exact point_step m c ⟨n + 1, h⟩ _ (carried h0)

/-- What a point past the first contraction step finds in the scratch: the products of the tiles before its own,
    for its own output block (the point before differs in the contraction step only). -/
theorem carried (c : Dev nD) (t : Fin cfg0.N) (h0 : ¬t.val % 4 = 0) (p q : Fin 1024) :
    (outsAt0 m c (t.val - 1) (Nat.lt_of_le_of_lt (Nat.sub_le _ _) t.isLt)).2 (ix2 p q)
      = rowDot (acts m c) (wts m c) (t.val / 16 * 1024 + p.val) (t.val / 4 % 4 * 1024 + q.val) (t.val % 4 * 1024) := by
  rw [scratch_eq]
  have e1 : (t.val - 1) / 16 = t.val / 16 := by omega
  have e2 : (t.val - 1) / 4 % 4 = t.val / 4 % 4 := by omega
  have e3 : (t.val - 1) % 4 + 1 = t.val % 4 := by omega
  show rowDot _ _ ((t.val - 1) / 16 * 1024 + p.val) ((t.val - 1) / 4 % 4 * 1024 + q.val) (((t.val - 1) % 4 + 1) * 1024) = _
  rw [e1, e2, e3]

/-- The output block at the last contraction step: the completed scratch plus the bias block. -/
theorem block_eq (c : Dev nD) (t : Fin cfg0.N) (h0 : ¬t.val % 4 = 0) (h3 : t.val % 4 = 3) :
    (outsAt0 m c t.val t.isLt).1 = k0_pay3 (F := Ideal) (partialAt m c t.val) (iblk m c 2 t) := by
  rw [outsAt0_C m c t h0 h3]
  dsimp only
  rw [Cases.block_last, point_step m c t _ (carried m c t h0)]

end Cert.KernelIdeal.Invariant

end
-- ==== Proof.Layout.lean ====
/-
  The three reshapes around the kernel's region, read away. The kernel's program flattens the 2 × 2048 tokens into
  4096 rows before the region, lays the bias out as one row, and unflattens the 4096 × 4096 result afterwards. Row
  `b · 2048 + s` of the flattened activations is token (b, s), so the layer of the flattened arrays, unflattened,
  is the result `out` in the programs' own layout. A reshape keeps the row-major position of every entry.
-/
import proofs.«106945_j46188078301681_1_alg».proof.Proof.Spec
import Idealize.ShloMosaic.Lib.Pipeline.Value

noncomputable section

namespace Cert.Dense

open Idealize.ShloMosaic Idealize.ShloMosaic.ValueIdx

theorem flat_out (x : Cube) (W : Sq) (bias : Vec1)
    (h1 : (⟨3, ![2, 2048, 4096]⟩ : Shape).ShapeCasts ⟨2, ![4096, 4096]⟩)
    (h2 : (⟨1, ![4096]⟩ : Shape).ShapeCasts ⟨2, ![1, 4096]⟩)
    (h3 : (⟨2, ![4096, 4096]⟩ : Shape).ShapeCasts ⟨3, ![2, 2048, 4096]⟩) :
    shapeCast ⟨3, ![2, 2048, 4096]⟩ (layer (shapeCast ⟨2, ![4096, 4096]⟩ x h1) W (shapeCast ⟨2, ![1, 4096]⟩ bias h2)) h3
      = out x W bias := by
  funext i
  have hi0 : (i 0).val < 2 := (i 0).isLt
  have hi1 : (i 1).val < 2048 := (i 1).isLt
  have hi2 : (i 2).val < 4096 := (i 2).isLt
  have hr : (i 0).val * 2048 + (i 1).val < 4096 := by omega
  rw [shapeCast_apply _ h3 i (ix2 ⟨(i 0).val * 2048 + (i 1).val, hr⟩ ⟨(i 2).val, hi2⟩) (by
    rw [Shape.rowMajor_val_two, Shape.rowMajor_val_three]; rfl)]
  rw [layer_apply _ W _ _ ((i 0).val * 2048 + (i 1).val) (i 2).val rfl rfl hi2]
  unfold out
  congr 1
  · unfold rowDot
    refine Finset.sum_congr rfl fun k hk => ?_
    have hk' : k < 4096 := Finset.mem_range.mp hk
    rw [ent_of_lt _ hr hk', feat_of_lt _ _ _ hk']
    congr 1
    exact shapeCast_apply x h1 _ _ (by rw [Shape.rowMajor_val_three, Shape.rowMajor_val_two]; rfl)
  · exact shapeCast_apply bias h2 _ _ (by rw [Shape.rowMajor_val_one, Shape.rowMajor_val_two]; simp)

end Cert.Dense

end
-- ==== Proof.KernelValue.lean ====
/-
  The kernel's result array. Output block (row block, column block) is written back once, after the last
  contraction step, and then holds the completed row products plus the bias stretch: the block of `layer` of the
  three arrays the region found. The sixteen blocks tile the 4096 × 4096 array, so the array ends at `layer`; the
  host line after the region unflattens it, and the host lines before the region made the activations the
  flattened input (narrowing to bf16 is the identity on the extended reals) and the bias row the bias.
-/
import proofs.«106945_j46188078301681_1_alg».proof.Proof.Invariant
import proofs.«106945_j46188078301681_1_alg».proof.Proof.Layout
import Idealize.ShloMosaic.Lib.StableHlo.Run

noncomputable section

namespace Cert.KernelIdeal.Result

open Cert.KernelIdeal Cert.KernelIdeal.Gen Cert.KernelIdeal.Blocks Cert.KernelIdeal.Invariant
open Idealize.ShloMosaic Idealize.ShloMosaic.TcCoe Idealize.SL.Sem Idealize.ShloMosaic.ValueIdx Cert.Dense
open Idealize.ShloMosaic.Pipeline (Dat)

variable (m : (ℓ : Loc nD τ sig) → Buf (Elt Ideal) ℓ) (ρ : Dev nD → PrngReg)

/-- What the region leaves in its result array. -/
abbrev result (c : Dev nD) : Sq := layer (acts m c) (wts m c) (biasRow m c)

/-- A last-step point writes back the block of `layer` its output window names. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 64 := lt_of_lt_of_eq t.isLt (show cfg0.N = 64 from N_0)
  have h0 : ¬t.val % 4 = 0 := by omega
  show (cfg0.win 3).cut (grid0.coords t) ((dats m 0 c).after 3 t) = _
  rw [after0_3, block_eq m c t h0 h3]
  funext y
  obtain ⟨p, q, rfl⟩ : ∃ (p : Fin 1024) (q : Fin 1024), y = ix2 p q := ⟨y 0, y 1, eq_ix2 y⟩
  have hq : t.val / 4 % 4 * 1024 + q.val < 4096 := by omega
  rw [View.read_apply]
  refine Eq.trans ?_ (layer_apply _ _ _ _ (t.val / 16 * 1024 + p.val) (t.val / 4 % 4 * 1024 + q.val) ?_ ?_ hq).symm
  · show k0_pay3 (F := Ideal) (partialAt m c t.val) (iblk m c 2 t) (ix2 p q) = _
    rw [Tile.finish_apply, bias_block m c t q hq]
    show rowDot _ _ (t.val / 16 * 1024 + p.val) (t.val / 4 % 4 * 1024 + q.val) ((t.val % 4 + 1) * 1024) + _ = _
    rw [h3]
  · show win0_3.index t 0 * 1024 + 1 * p.val = _
    rw [(where_out t).1]; omega
  · show win0_3.index t 1 * 1024 + 1 * q.val = _
    rw [(where_out t).2]; omega

/-- An index is in point `t`'s output block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v24).slice (win0_3.rect t)).set ↔ _
  rw [View.set_slice_whole, Rect.mem_set_unit]
  exact Iff.rfl

/-- Entry (r, o) lies in the block written back at the last step of output block (r / 1024, o / 1024). -/
theorem cover (i : S4096x4096.Idx) : ∃ t : Fin cfg0.N, (cfg0.win 3).flush t = true ∧ i ∈ ((cfg0.win 3).blk t).view.set := by
  have h0 : (i 0).val < 4096 := idx2_lt0 i
  have h1 : (i 1).val < 4096 := idx2_lt1 i
  have hN : cfg0.N = 64 := N_0
  refine ⟨⟨(i 0).val / 1024 * 16 + (i 1).val / 1024 * 4 + 3, by rw [hN]; omega⟩, (flush0_3 _).mpr (by dsimp only; omega), ?_⟩
  rw [mem_block]
  intro a
  match a with
  | ⟨0, _⟩ =>
    show win0_3.index _ 0 * 1024 ≤ (i 0).val ∧ (i 0).val < win0_3.index _ 0 * 1024 + 1024
    rw [(where_out _).1]; dsimp only; omega
  | ⟨1, _⟩ =>
    show win0_3.index _ 1 * 1024 ≤ (i 1).val ∧ (i 1).val < win0_3.index _ 1 * 1024 + 1024
    rw [(where_out _).2]; dsimp only; omega

/-- So the result array ends at `layer` of the arrays the region found. -/
theorem final (c : Dev nD) : (dats m 0 c).arrAt 3 cfg0.N = result m c :=
  (dats m 0 c).arrAt_eq_of_cover 3 (result m c) (flushed_eq m c) cover

/-- The activations the region finds are the input, flattened. -/
theorem acts_eq (c : Dev nD) :
    acts m c = shapeCast S4096x4096 (m ((c.tc : Thread nD τ).loc main_arg0)) shapeCasts_S2x2048x4096_S4096x4096 := by
  show StableHlo.after hostOps0 (fun b => m (c, b)) (Proc.devRef .tc main_v21) = _
  after_results
  rfl

/-- The bias row the region finds is the bias. -/
theorem bias_eq (c : Dev nD) :
    biasRow m c = shapeCast S1x4096 (m ((c.tc : Thread nD τ).loc main_arg6)) shapeCasts_S4096_S1x4096 := by
  show StableHlo.after hostOps0 (fun b => m (c, b)) (Proc.devRef .tc main_v23) = _
  after_results
  rfl

/-- After the host line that follows the region, the program's result is `out` of the input, the weights the
    region found, and the bias. -/
theorem tail_eq (c : Dev nD) :
    Pipeline.afterTail₀ cfgs (dats m) 0 (V0 m) [hostOps1] c main_v25
      = out (m ((c.tc : Thread nD τ).loc main_arg0)) (wts m c) (m ((c.tc : Thread nD τ).loc main_arg6)) := by
  unfold Pipeline.afterTail₀
  show StableHlo.after hostOps1 _ (Proc.devRef .tc main_v25) = _
  after_results
  have e : (Pipeline.withArrays spec0 c (V0 m c) (fun w => (dats m 0 c).arrAt w cfg0.N) (Proc.devRef .tc (Pipeline.arrRef spec0 3)) : Sq)
      = layer (shapeCast S4096x4096 (m ((c.tc : Thread nD τ).loc main_arg0)) shapeCasts_S2x2048x4096_S4096x4096) (wts m c)
          (shapeCast S1x4096 (m ((c.tc : Thread nD τ).loc main_arg6)) shapeCasts_S4096_S1x4096) := by
    rw [Pipeline.withArrays_arr spec0 launch0.win.arr_inj c _ _ 3, final m c]
    show layer (acts m c) (wts m c) (biasRow m c) = _
    rw [acts_eq m c, bias_eq m c]
  show shapeCast S2x2048x4096 (Pipeline.withArrays spec0 c (V0 m c) (fun w => (dats m 0 c).arrAt w cfg0.N) (Proc.devRef .tc (Pipeline.arrRef spec0 3))) shapeCasts_S4096x4096_S2x2048x4096 = _
  rw [e]
  exact flat_out _ _ _ _ _ _

/-- The kernel's run, read: the result at `out` of the input, the weights the region found and the bias; the
    arguments unchanged. -/
theorem run : θ_run defs (onTc (τ := τ) (main (F := Ideal))) ⟨m, fun _ => 0, ρ⟩ fun r => ∀ c : Dev nD,
      r.2.mem ((c.tc : Thread nD τ).loc main_v25) = out (m ((c.tc : Thread nD τ).loc main_arg0)) (wts m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.Weights.lean ====
/-
  The weights. Both programs rebuild the 4096 × 4096 weight array on the host by the same operations: two
  codebook lookups (negative codes wrapped by the table's length, as indexing does), each reshaped to 2048 rows,
  stacked, and every row scaled. The kernel's program then narrows the array to bf16, which is the identity on the
  extended reals. So the array the kernel's region finds is the reference's weight array of the same arguments;
  it is never opened.
-/
import proofs.«106945_j46188078301681_1_alg».proof.Proof.Gen.KernelIdeal.Frame
import proofs.«106945_j46188078301681_1_alg».proof.Proof.Gen.ReferenceIdeal.Read
import proofs.«106945_j46188078301681_1_alg».proof.Proof.Spec
import Idealize.ShloMosaic.Lib.StableHlo.Run

noncomputable section

namespace Cert.KernelIdeal.Weights

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem wts_eq (c : Dev nD) :
    (V m c main_v22 : Cert.Dense.Sq)
      = Cert.ReferenceIdeal.Read.val_main_v19 (F := Ideal) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  show StableHlo.after hostOps0 (fun b => m (c, b)) (Proc.devRef .tc main_v22) = _
  after_results
  rfl

end Cert.KernelIdeal.Weights

end
-- ==== Proof.RefValue.lean ====
/-
  The reference, read at an index: a contraction of each token's 4096 features with each row of the weights
  (the einsum "bsi,oi->bso"), plus the bias laid along the last axis. That is the result `out` of the activations,
  the reference's own weight array (kept as one opaque array: the same host operations build it in both
  programs) and the bias.
-/
import proofs.«106945_j46188078301681_1_alg».proof.Proof.Gen.ReferenceIdeal.Read
import proofs.«106945_j46188078301681_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Dense

theorem result_eq (x0 : (⟨S2x2048x4096, .f32⟩ : BufTy).Contents (Elt Ideal)) (x1 x2 : (⟨S2048x2048, .i32⟩ : BufTy).Contents (Elt Ideal))
    (x3 : (⟨S256x2, .f32⟩ : BufTy).Contents (Elt Ideal)) (x4 : (⟨S16x2, .f32⟩ : BufTy).Contents (Elt Ideal))
    (x5 x6 : (⟨S4096, .f32⟩ : BufTy).Contents (Elt Ideal)) :
    val_main_v23 (F := Ideal) x0 x1 x2 x3 x4 x5 x6 = out x0 (val_main_v19 (F := Ideal) x1 x2 x3 x4 x5) x6 := by
  funext i
  rw [val_main_v23_apply, val_main_v20_apply, val_main_v22_apply, val_main_v21_apply]
  generalize val_main_v19 (F := Ideal) x1 x2 x3 x4 x5 = W
  show (∑ k : Fin 4096, x0 (lidx_main_v20 i k) * W (ridx_main_v20 i k)) + x6 (idx_main_v21 (idx_main_v22 i)) = out x0 W x6 i
  unfold out
  congr 1
  · rw [← Fin.sum_univ_eq_sum_range (fun k => feat x0 ⟨(i 0).val, (i 0).isLt⟩ ⟨(i 1).val, (i 1).isLt⟩ k * ent W (i 2).val k) 4096]
    refine Finset.sum_congr rfl fun k _ => ?_
    rw [feat_of_lt _ _ _ k.isLt, ent_of_lt W (i 2).isLt k.isLt]
    congr 1
    · exact congrArg x0 (funext fun a => match a with | ⟨0, _⟩ => rfl | ⟨1, _⟩ => rfl | ⟨2, _⟩ => rfl)
    · exact congrArg W (funext fun a => match a with | ⟨0, _⟩ => rfl | ⟨1, _⟩ => rfl)
  · exact congrArg x6 (funext fun a => match a with | ⟨0, _⟩ => rfl)

end Cert.ReferenceIdeal.RefValue

end
-- ==== Proof.lean ====
/-
  A linear layer with vector-quantised weights: `y = x · Wᵀ + b` for 2 × 2048 tokens of 4096 features, where the
  4096 × 4096 weight array is rebuilt on the host from two codebooks (the same operations in both programs) and
  scaled row by row.

  The kernel flattens the tokens to 4096 rows and computes the product in 4 × 4 output blocks of 1024 × 1024,
  walking the contraction axis in four tiles: a scratch block is zeroed at the first tile, each tile's product is
  added to it, and after the last tile the block plus its stretch of the bias is written out. The reference
  contracts each token's 4096 features with each row of the weights in one sum and adds the bias.

  Over the extended reals the two agree because a sum of 4096 products is the sum of its four runs of 1024
  (addition is associative and commutative there without any finiteness condition, so the precondition is not
  opened), narrowing to bf16 is the identity, and a reshape keeps every entry's row-major position.
  Modules: Spec (the layer as one function), Tile (the body's stored values at an index), Cases (what each run of
  the body leaves), Blocks (the windows' blocks read off their arrays), Invariant (the scratch after every grid
  point), KernelValue (the result array and the kernel's run), Layout (the reshapes), Weights (both programs'
  weight arrays are one), RefValue (the reference at an index).
-/
import proofs.«106945_j46188078301681_1_alg».proof.Defs
import proofs.«106945_j46188078301681_1_alg».proof.Proof.Gen.Kernel
import proofs.«106945_j46188078301681_1_alg».proof.Proof.Gen.Kernel.Frame
import proofs.«106945_j46188078301681_1_alg».proof.Proof.Gen.KernelIdeal
import proofs.«106945_j46188078301681_1_alg».proof.Proof.Gen.KernelIdeal.Frame
import proofs.«106945_j46188078301681_1_alg».proof.Proof.Gen.ReferenceIdeal
import proofs.«106945_j46188078301681_1_alg».proof.Proof.Gen.ReferenceIdeal.Run
import proofs.«106945_j46188078301681_1_alg».proof.Proof.Gen.ReferenceIdeal.Read
import proofs.«106945_j46188078301681_1_alg».proof.Proof.Gen.Pre_finite_inputs
import proofs.«106945_j46188078301681_1_alg».proof.Proof.KernelValue
import proofs.«106945_j46188078301681_1_alg».proof.Proof.Weights
import proofs.«106945_j46188078301681_1_alg».proof.Proof.RefValue

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer `out` of the input, one weight array and the bias. -/
theorem algebraic : Cert.algebraic_KernelIdeal_ReferenceIdeal := by
  intro m ρ m' ρ' _ hagree
  refine ⟨fun c => Cert.Dense.out (m ((c.tc : Thread Cert.KernelIdeal.nD Cert.KernelIdeal.τ).loc Cert.KernelIdeal.main_arg0)) (Cert.KernelIdeal.Blocks.wts m c) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact ((Cert.ReferenceIdeal.Read.val_main_v23_eq _ _ _ _ _ _ _).trans
    (Cert.ReferenceIdeal.RefValue.result_eq _ _ _ _ _ _ _)).trans
    (congrArg (fun W => Cert.Dense.out _ W _) (Cert.KernelIdeal.Weights.wts_eq m c).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
